-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S27x16x16 : Shape := ⟨3, ![27, 16, 16]⟩
abbrev S16 : Shape := ⟨1, ![16]⟩
abbrev S27x250000 : Shape := ⟨2, ![27, 250000]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S27x16x16 : S_.BroadcastsInDim S27x16x16 (![] : Fin 0 → Fin S27x16x16.rank)
  reducesTo_S27x16x16_S_d0_1_2 : S27x16x16.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S500000x16 .f32) (main_arg1 : FVec F S27x16x16 .f32) (main_arg2 : FVec F S16 .f32) (main_arg3 : IVec S27x250000 32) (main_arg4 : IVec S27x250000 32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S27x16x16 .f32 := Host.absf main_arg1
  let main_cst_0 : FVec F S_ .f32 := constant S_ .f32 0x7F800000#32
  let main_v5 : FVec F S27x16x16 .f32 := broadcastInDim S27x16x16 ![] bcast_S_S27x16x16 main_cst_0
  let main_v6 : IVec S27x16x16 1 := cmpf .olt main_v4 main_v5
  let main_c_1 : IVec S_ 1 := constantI S_ 1 1#1
  let main_v7 : IVec S_ 1 := (fun x v => Host.reduce IntOp.andi x v reducesTo_S27x16x16_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S500000x16 : Shape := ⟨2, ![500000, 16]⟩
abbrev S27x16x16 : Shape := ⟨3, ![27, 16, 16]⟩
abbrev S16 : Shape := ⟨1, ![16]⟩
abbrev S27x250000 : Shape := ⟨2, ![27, 250000]⟩
abbrev S_ : Shape := ⟨0, ![]⟩
abbrev S27x250000x1 : Shape := ⟨3, ![27, 250000, 1]⟩
abbrev S27x250000x16 : Shape := ⟨3, ![27, 250000, 16]⟩
abbrev S1x50000x16 : Shape := ⟨3, ![1, 50000, 16]⟩
abbrev S1x16x16 : Shape := ⟨3, ![1, 16, 16]⟩
abbrev S50000x16 : Shape := ⟨2, ![50000, 16]⟩
abbrev S16x16 : Shape := ⟨2, ![16, 16]⟩
abbrev S6750000 : Shape := ⟨1, ![6750000]⟩
abbrev S6750000x16 : Shape := ⟨2, ![6750000, 16]⟩
abbrev S6750000x1 : Shape := ⟨2, ![6750000, 1]⟩

abbrev nBuf : Space → Nat
  | .hbm => 29
  | .vmem => 6
  | .smem => 0
  | _ => 0

abbrev bufTy : (tb : Table) → Fin (tcTables nBuf tb) → BufTy
  | .hbm, ⟨0, _⟩ => ⟨S500000x16, .f32⟩
  | .hbm, ⟨1, _⟩ => ⟨S27x16x16, .f32⟩
  | .hbm, ⟨2, _⟩ => ⟨S16, .f32⟩
  | .hbm, ⟨3, _⟩ => ⟨S27x250000, .i32⟩
  | .hbm, ⟨4, _⟩ => ⟨S27x250000, .i32⟩
  | .hbm, ⟨5, _⟩ => ⟨S500000x16, .bf16⟩
  | .hbm, ⟨6, _⟩ => ⟨S27x16x16, .bf16⟩
  | .hbm, ⟨7, _⟩ => ⟨S_, .i32⟩
  | .hbm, ⟨8, _⟩ => ⟨S27x250000, .i32⟩
  | .hbm, ⟨9, _⟩ => ⟨S27x250000, .i1⟩
  | .hbm, ⟨10, _⟩ => ⟨S_, .i32⟩
  | .hbm, ⟨11, _⟩ => ⟨S27x250000, .i32⟩
  | .hbm, ⟨12, _⟩ => ⟨S27x250000, .i32⟩
  | .hbm, ⟨13, _⟩ => ⟨S27x250000, .i32⟩
  | .hbm, ⟨14, _⟩ => ⟨S27x250000x1, .i32⟩
  | .hbm, ⟨15, _⟩ => ⟨S27x250000x16, .bf16⟩
  | .hbm, ⟨16, _⟩ => ⟨S27x250000x16, .f32⟩
  | .hbm, ⟨17, _⟩ => ⟨S500000x16, .f32⟩
  | .hbm, ⟨18, _⟩ => ⟨S6750000, .i32⟩
  | .hbm, ⟨19, _⟩ => ⟨S6750000x16, .f32⟩
  | .hbm, ⟨20, _⟩ => ⟨S_, .i32⟩
  | .hbm, ⟨21, _⟩ => ⟨S6750000, .i32⟩
  | .hbm, ⟨22, _⟩ => ⟨S6750000, .i1⟩
  | .hbm, ⟨23, _⟩ => ⟨S_, .i32⟩
  | .hbm, ⟨24, _⟩ => ⟨S6750000, .i32⟩
  | .hbm, ⟨25, _⟩ => ⟨S6750000, .i32⟩
  | .hbm, ⟨26, _⟩ => ⟨S6750000, .i32⟩
  | .hbm, ⟨27, _⟩ => ⟨S6750000x1, .i32⟩
  | .hbm, ⟨28, _⟩ => ⟨S500000x16, .f32⟩
  | .local _ .vmem, ⟨0, _⟩ => ⟨S1x50000x16, .bf16⟩
  | .local _ .vmem, ⟨1, _⟩ => ⟨S1x50000x16, .bf16⟩
  | .local _ .vmem, ⟨2, _⟩ => ⟨S1x16x16, .bf16⟩
  | .local _ .vmem, ⟨3, _⟩ => ⟨S1x16x16, .bf16⟩
  | .local _ .vmem, ⟨4, _⟩ => ⟨S1x50000x16, .f32⟩
  | .local _ .vmem, ⟨5, _⟩ => ⟨S1x50000x16, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x50000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x50000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S27x250000 : S_.BroadcastsInDim S27x250000 (![] : Fin 0 → Fin S27x250000.rank)
  bcast_S27x250000_S27x250000x1_0_1 : S27x250000.BroadcastsInDim S27x250000x1 (![0, 1] : Fin 2 → Fin S27x250000x1.rank)
  inb_S1x50000x16_S1x50000x16_0_0_0 : ∀ a, (![0, 0, 0] : Fin 3 → Nat) a + S1x50000x16.size a ≤ S1x50000x16.size a
  h_S1x50000x16 : 0 < S1x50000x16.numel
  shapeCasts_S1x50000x16_S50000x16 : S1x50000x16.ShapeCasts S50000x16
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S50000x16_S1x50000x16 : S50000x16.ShapeCasts S1x50000x16
  bcast_S16_S500000x16_1 : S16.BroadcastsInDim S500000x16 (![1] : Fin 1 → Fin S500000x16.rank)
  shapeCasts_S27x250000_S6750000 : S27x250000.ShapeCasts S6750000
  shapeCasts_S27x250000x16_S6750000x16 : S27x250000x16.ShapeCasts S6750000x16
  bcast_S_S6750000 : S_.BroadcastsInDim S6750000 (![] : Fin 0 → Fin S6750000.rank)
  bcast_S6750000_S6750000x1_0 : S6750000.BroadcastsInDim S6750000x1 (![0] : Fin 1 → Fin S6750000x1.rank)
  gather_S500000x16_S27x250000x1_S27x250000x16_2_0_n_n_0_2_116_wf : GatherDims.WF S500000x16 S27x250000x1 S27x250000x16 [2] [0] [] [0] [] 2 ![1, 16]
  dot_S50000x16_S16x16_S50000x16_1_0_0_1_n_n_wf : DotDims.WF S50000x16 S16x16 S50000x16 [1] [0] [0] [1] [] []
  scatter_S500000x16_S6750000x1_S6750000x16_1_0_0_1_wf : ScatterDims.WF S500000x16 S6750000x1 S6750000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x50000x16.size a ≤ S27x250000x16.size a
  hwx0_0 : ∀ i : grid0.Coords, EltTy.bits .bf16 = 32 ∨ (Rect.block (s := S27x250000x16) S1x50000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16.size a ≤ S27x16x16.size a
  hwx0_1 : ∀ i : grid0.Coords, EltTy.bits .bf16 = 32 ∨ (Rect.block (s := S27x16x16) S1x16x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x50000x16.size a ≤ S27x250000x16.size a
  hwx0_2 : ∀ i : grid0.Coords, EltTy.bits .f32 = 32 ∨ (Rect.block (s := S27x250000x16) S1x50000x16.size (cc0_transform_2 i) (hinb0_2 i)).WholeWords (EltTy.packing .f32)

variable [Facts₀]

def gather_S500000x16_S27x250000x1_S27x250000x16_2_0_n_n_0_2_116 : GatherDims S500000x16 S27x250000x1 S27x250000x16 where
  offsetDims := [2]
  collapsedSliceDims := [0]
  operandBatchingDims := []
  startIndicesBatchingDims := []
  startIndexMap := [0]
  indexVectorDim := 2
  sliceSizes := ![1, 16]
  wf := gather_S500000x16_S27x250000x1_S27x250000x16_2_0_n_n_0_2_116_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf
def scatter_S500000x16_S6750000x1_S6750000x16_1_0_0_1 : ScatterDims S500000x16 S6750000x1 S6750000x16 where
  updateWindowDims := [1]
  insertedWindowDims := [0]
  scatterDimsToOperandDims := [0]
  indexVectorDim := 1
  wf := scatter_S500000x16_S6750000x1_S6750000x16_1_0_0_1_wf

abbrev win0_0 : Pipeline.Window sig grid0 :=
  Pipeline.Window.ofSpec (Memref.whole main_v8) S1x50000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x50000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x16 : Shape := ⟨2, ![500000, 16]⟩
abbrev S27x16x16 : Shape := ⟨3, ![27, 16, 16]⟩
abbrev S16 : Shape := ⟨1, ![16]⟩
abbrev S27x250000 : Shape := ⟨2, ![27, 250000]⟩
abbrev S_ : Shape := ⟨0, ![]⟩
abbrev S27x250000x1 : Shape := ⟨3, ![27, 250000, 1]⟩
abbrev S27x250000x16 : Shape := ⟨3, ![27, 250000, 16]⟩
abbrev S6750000 : Shape := ⟨1, ![6750000]⟩
abbrev S6750000x16 : Shape := ⟨2, ![6750000, 16]⟩
abbrev S6750000x1 : Shape := ⟨2, ![6750000, 1]⟩

abbrev nBuf : Space → Nat
  | .hbm => 27
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S27x16x16, .f32⟩
  | .hbm, ⟨2, _⟩ => ⟨S16, .f32⟩
  | .hbm, ⟨3, _⟩ => ⟨S27x250000, .i32⟩
  | .hbm, ⟨4, _⟩ => ⟨S27x250000, .i32⟩
  | .hbm, ⟨5, _⟩ => ⟨S_, .i32⟩
  | .hbm, ⟨6, _⟩ => ⟨S27x250000, .i32⟩
  | .hbm, ⟨7, _⟩ => ⟨S27x250000, .i1⟩
  | .hbm, ⟨8, _⟩ => ⟨S_, .i32⟩
  | .hbm, ⟨9, _⟩ => ⟨S27x250000, .i32⟩
  | .hbm, ⟨10, _⟩ => ⟨S27x250000, .i32⟩
  | .hbm, ⟨11, _⟩ => ⟨S27x250000, .i32⟩
  | .hbm, ⟨12, _⟩ => ⟨S27x250000x1, .i32⟩
  | .hbm, ⟨13, _⟩ => ⟨S27x250000x16, .f32⟩
  | .hbm, ⟨14, _⟩ => ⟨S27x250000x16, .f32⟩
  | .hbm, ⟨15, _⟩ => ⟨S500000x16, .f32⟩
  | .hbm, ⟨16, _⟩ => ⟨S6750000, .i32⟩
  | .hbm, ⟨17, _⟩ => ⟨S6750000x16, .f32⟩
  | .hbm, ⟨18, _⟩ => ⟨S_, .i32⟩
  | .hbm, ⟨19, _⟩ => ⟨S6750000, .i32⟩
  | .hbm, ⟨20, _⟩ => ⟨S6750000, .i1⟩
  | .hbm, ⟨21, _⟩ => ⟨S_, .i32⟩
  | .hbm, ⟨22, _⟩ => ⟨S6750000, .i32⟩
  | .hbm, ⟨23, _⟩ => ⟨S6750000, .i32⟩
  | .hbm, ⟨24, _⟩ => ⟨S6750000, .i32⟩
  | .hbm, ⟨25, _⟩ => ⟨S6750000x1, .i32⟩
  | .hbm, ⟨26, _⟩ => ⟨S500000x16, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S27x250000 : S_.BroadcastsInDim S27x250000 (![] : Fin 0 → Fin S27x250000.rank)
  bcast_S27x250000_S27x250000x1_0_1 : S27x250000.BroadcastsInDim S27x250000x1 (![0, 1] : Fin 2 → Fin S27x250000x1.rank)
  bcast_S16_S500000x16_1 : S16.BroadcastsInDim S500000x16 (![1] : Fin 1 → Fin S500000x16.rank)
  shapeCasts_S27x250000_S6750000 : S27x250000.ShapeCasts S6750000
  shapeCasts_S27x250000x16_S6750000x16 : S27x250000x16.ShapeCasts S6750000x16
  bcast_S_S6750000 : S_.BroadcastsInDim S6750000 (![] : Fin 0 → Fin S6750000.rank)
  bcast_S6750000_S6750000x1_0 : S6750000.BroadcastsInDim S6750000x1 (![0] : Fin 1 → Fin S6750000x1.rank)
  gather_S500000x16_S27x250000x1_S27x250000x16_2_0_n_n_0_2_116_wf : GatherDims.WF S500000x16 S27x250000x1 S27x250000x16 [2] [0] [] [0] [] 2 ![1, 16]
  dot_S27x250000x16_S27x16x16_S27x250000x16_2_1_1_2_0_0_wf : DotDims.WF S27x250000x16 S27x16x16 S27x250000x16 [2] [1] [1] [2] [0] [0]
  scatter_S500000x16_S6750000x1_S6750000x16_1_0_0_1_wf : ScatterDims.WF S500000x16 S6750000x1 S6750000x16 [1] [0] [0] 1

variable [Facts₀]

def gather_S500000x16_S27x250000x1_S27x250000x16_2_0_n_n_0_2_116 : GatherDims S500000x16 S27x250000x1 S27x250000x16 where
  offsetDims := [2]
  collapsedSliceDims := [0]
  operandBatchingDims := []
  startIndicesBatchingDims := []
  startIndexMap := [0]
  indexVectorDim := 2
  sliceSizes := ![1, 16]
  wf := gather_S500000x16_S27x250000x1_S27x250000x16_2_0_n_n_0_2_116_wf
def dot_S27x250000x16_S27x16x16_S27x250000x16_2_1_1_2_0_0 : DotDims S27x250000x16 S27x16x16 S27x250000x16 where
  lhsContracting := [2]
  rhsContracting := [1]
  lhsNonContracting := [1]
  rhsNonContracting := [2]
  lhsBatch := [0]
  rhsBatch := [0]
  wf := dot_S27x250000x16_S27x16x16_S27x250000x16_2_1_1_2_0_0_wf
def scatter_S500000x16_S6750000x1_S6750000x16_1_0_0_1 : ScatterDims S500000x16 S6750000x1 S6750000x16 where
  updateWindowDims := [1]
  insertedWindowDims := [0]
  scatterDimsToOperandDims := [0]
  indexVectorDim := 1
  wf := scatter_S500000x16_S6750000x1_S6750000x16_1_0_0_1_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.BlockProduct.lean ====
/-
  One grid point's arithmetic, entry by entry. The body loads a [1, 50000, 16] block of gathered rows and a
  [1, 16, 16] block holding one offset's weight matrix, drops the unit axis of both, multiplies the two matrices into
  a zero accumulator and puts the unit axis back. On the extended reals entry (r, o) of what it stores is therefore
  the sum over the sixteen input channels c of row r's channel c times the weight at (c, o).
-/
import proofs.«174144_j10934986735759_1_alg».proof.Proof.Gen.KernelIdeal.Skeleton
import proofs.«174144_j10934986735759_1_alg».proof.Proof.LibPlainDot
import Idealize.ShloMosaic.Lib.ValueLayout
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The printed dimension numbers of the body's product are the plain ones: rows by channels times channels by columns. -/
theorem dot_plain : dot_S50000x16_S16x16_S50000x16_1_0_0_1_n_n = DotDims.plain 50000 16 16 := rfl

/-- Entry (u, r, o) of the stored block: the sum over the input channels of the row block at (0, r, c) times the
    weight block at (0, c, o). -/
theorem pay_apply (x0 : Vec Ideal S1x50000x16 .bf16) (x1 : Vec Ideal S1x16x16 .bf16) (u : Fin 1) (r : Fin 50000) (o : Fin 16) :
    k0_pay1 (F := Ideal) x0 x1 (ix3 u r o) = ∑ k : Fin 16, x0 (ix3 (0 : Fin 1) r k) * x1 (ix3 (0 : Fin 1) k o) := by
  unfold k0_pay1
  refine (shapeCast_ab_1ab_apply _ _ u r o).trans ?_
  refine (Cert.PlainDot.matmul_zero_apply _ dot_plain none _ _ (ix2 r o)).trans ?_
  refine Finset.sum_congr rfl fun k _ => ?_
  show shapeCast S50000x16 x0 _ (ix2 r k) * shapeCast S16x16 x1 _ (ix2 k o) = _
  rw [shapeCast_1ab_ab_apply, shapeCast_1ab_ab_apply]

end Cert.KernelIdeal.Hand

end
-- ==== Proof.KernelValue.lean ====
/-
  What the kernel's run leaves in its result array, on the extended reals.

  The region's grid is 27 offsets by 5 row tiles. At point (k, b) the body reads rows 50000·b … 50000·b + 49999 of
  offset k's gathered features and offset k's weight matrix, and writes the same rows of offset k's contributions. So
  every entry (k, r, o) of the contribution array is written exactly by the point (k, r / 50000), and ends at the sum
  over the input channels c of gathered (k, r, c) times weight (k, c, o). The host lines before the region produce the
  gathered rows (a change of float format, the identity here, then the row gather at the wrapped indices); the host
  lines after it scatter-add the contributions, flattened to 6750000 rows, into the broadcast bias.
-/
import proofs.«174144_j10934986735759_1_alg».proof.Proof.Gen.KernelIdeal.Frame
import proofs.«174144_j10934986735759_1_alg».proof.Proof.BlockProduct
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The per-offset products: entry (k, r, o) is the sum over the input channels c of g (k, r, c) · w (k, c, o). -/
def contrib (g : S27x250000x16.Idx → EReal) (w : S27x16x16.Idx → EReal) : S27x250000x16.Idx → EReal :=
  fun i => ∑ c : Fin 16, g (ix3 (i 0) (i 1) c) * w (ix3 (i 0) c (i 2))

theorem hz3 : (![0, 0, 0] : Fin 3 → Nat) = fun _ => 0 := funext fun a => by fin_cases a <;> rfl

/-- A block of rows times one offset's weights is the corresponding block of `contrib`: if the row block `x0` is `g`
    read at offset `kk`, rows `rb · 50000 + ·`, and the weight block `x1` is `w` read at offset `kk`, then what the body
    stores is `contrib g w` read at offset `kk`, the same rows. -/
theorem block_eq (g : S27x250000x16.Idx → EReal) (w : S27x16x16.Idx → EReal)
    (x0 : Vec Ideal S1x50000x16 .bf16) (x1 : Vec Ideal S1x16x16 .bf16) (kk rb : Nat)
    (e0 e2 : S1x50000x16.Idx → S27x250000x16.Idx) (e1 : S1x16x16.Idx → S27x16x16.Idx)
    (h0 : ∀ y, x0 y = g (e0 y)) (h1 : ∀ y, x1 y = w (e1 y))
    (he0 : ∀ y, (e0 y 0).val = kk ∧ (e0 y 1).val = rb * 50000 + (y 1).val ∧ (e0 y 2).val = (y 2).val)
    (he1 : ∀ y, (e1 y 0).val = kk ∧ (e1 y 1).val = (y 1).val ∧ (e1 y 2).val = (y 2).val)
    (he2 : ∀ y, (e2 y 0).val = kk ∧ (e2 y 1).val = rb * 50000 + (y 1).val ∧ (e2 y 2).val = (y 2).val)
    (j : S1x50000x16.Idx) : k0_pay1 (F := Ideal) x0 x1 j = contrib g w (e2 j) := by
  obtain ⟨u, r, o, rfl⟩ : ∃ (u : Fin 1) (r : Fin 50000) (o : Fin 16), j = ix3 u r o := ⟨j 0, j 1, j 2, eq_ix3 j⟩
  rw [pay_apply]
  unfold contrib
  refine Finset.sum_congr rfl fun k _ => ?_
  rw [h0, h1]
  obtain ⟨a0, a1, a2⟩ := he0 (ix3 (0 : Fin 1) r k)
  obtain ⟨b0, b1, b2⟩ := he1 (ix3 (0 : Fin 1) k o)
  obtain ⟨c0, c1, c2⟩ := he2 (ix3 u r o)
  have hl : e0 (ix3 (0 : Fin 1) r k) = ix3 (e2 (ix3 u r o) 0) (e2 (ix3 u r o) 1) k := by
    funext a; apply Fin.ext
    match a with
    | ⟨0, _⟩ => exact a0.trans c0.symm
    | ⟨1, _⟩ => exact a1.trans c1.symm
    | ⟨2, _⟩ => exact a2
  have hr : e1 (ix3 (0 : Fin 1) k o) = ix3 (e2 (ix3 u r o) 0) k (e2 (ix3 u r o) 2) := by
    funext a; apply Fin.ext
    match a with
    | ⟨0, _⟩ => exact b0.trans c0.symm
    | ⟨1, _⟩ => exact b1
    | ⟨2, _⟩ => exact b2.trans c2.symm
  rw [hl, hr]
  rfl

/-- The printed index maps, decided over the grid: the row window and the result window move together, the weight
    window follows the offset alone, and the block indices stay inside 27 offsets by 5 row tiles. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 26 ∧ win0_2.index t (1 : Fin 3) ≤ 4 ∧ win0_2.index t (2 : Fin 3) = 0 :=
  (by decide +kernel : ∀ t : Fin grid0.N, _)

/-- Every (offset, row tile) pair is some point's block. -/
theorem idx_onto : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

/-- What point `t` writes back is block `t` of `contrib` of the gathered rows and the weights as the region finds them. -/
theorem flushed_eq (c : Dev nD) (t : Fin cfg0.N) :
    (dats m 0 c).flushed 2 t = ((cfg0.win 2).blk t).view.read (Elt Ideal) (contrib (V m c main_v8) (V m c main_v1)) := by
  show (cfg0.win 2).cut (grid0.coords t) ((dats m 0 c).after 2 t) = _
  rw [after0_2]
  unfold out0_2
  rw [View.canon_unit_zero hz3]
  simp only [View.ld_unit_zero (S := S1x50000x16) hz3, View.ld_unit_zero (S := S1x16x16) hz3]
  obtain ⟨f0, f1, f2, f3, f4, f5, f6, f7, f8⟩ := idx_facts t
  funext j
  show k0_pay1 (F := Ideal) (iblk m c 0 t) (iblk m c 1 t) j = contrib (V m c main_v8) (V m c main_v1) (((cfg0.win 2).blk t).view.emb j)
  refine block_eq (V m c main_v8) (V m c main_v1) (iblk m c 0 t) (iblk m c 1 t) (win0_2.index t (0 : Fin 3)) (win0_2.index t (1 : Fin 3))
    (fun y => ((cfg0.win 0).blk t).view.emb y) (fun y => ((cfg0.win 2).blk t).view.emb y) (fun y => ((cfg0.win 1).blk t).view.emb y)
    (fun y => rfl) (fun y => rfl) (fun y => ?_) (fun y => ?_) (fun y => ?_) j
  · have hy : (y 0).val < 1 := (y 0).isLt
    refine ⟨?_, ?_, ?_⟩
    · show win0_0.index t (0 : Fin 3) * 1 + 1 * (y 0).val = _; omega
    · show win0_0.index t (1 : Fin 3) * 50000 + 1 * (y 1).val = _; omega
    · show win0_0.index t (2 : Fin 3) * 16 + 1 * (y 2).val = _; omega
  · have hy : (y 0).val < 1 := (y 0).isLt
    refine ⟨?_, ?_, ?_⟩
    · show win0_1.index t (0 : Fin 3) * 1 + 1 * (y 0).val = _; omega
    · show win0_1.index t (1 : Fin 3) * 16 + 1 * (y 1).val = _; omega
    · show win0_1.index t (2 : Fin 3) * 16 + 1 * (y 2).val = _; omega
  · have hy : (y 0).val < 1 := (y 0).isLt
    refine ⟨?_, ?_, ?_⟩
    · show win0_2.index t (0 : Fin 3) * 1 + 1 * (y 0).val = _; omega
    · show win0_2.index t (1 : Fin 3) * 50000 + 1 * (y 1).val = _; omega
    · show win0_2.index t (2 : Fin 3) * 16 + 1 * (y 2).val = _; omega

/-- An index of the contribution array is in point `t`'s block iff each coordinate is in the block's range on its axis. -/
theorem mem_blk (t : Fin cfg0.N) (i : S27x250000x16.Idx) :
    i ∈ ((cfg0.win 2).blk t).view.set ↔ ∀ a : Fin 3, win0_2.index t a * S1x50000x16.size a ≤ (i a).val ∧ (i a).val < win0_2.index t a * S1x50000x16.size a + S1x50000x16.size a := by
  show i ∈ ((View.whole main_v9).slice (win0_2.rect t)).set ↔ _
  rw [View.set_slice_whole, Rect.mem_set_unit]
  exact Iff.rfl

/-- Every entry (k, r, o) is in the block of the point at offset k, row tile r / 50000. -/
theorem covered (i : S27x250000x16.Idx) : ∃ t : Fin cfg0.N, (cfg0.win 2).flush t = true ∧ i ∈ ((cfg0.win 2).blk t).view.set := by
  have hi0 : (i 0).val < 27 := (i 0).isLt
  have hi1 : (i 1).val < 250000 := (i 1).isLt
  have hi2 : (i 2).val < 16 := (i 2).isLt
  obtain ⟨t, ht⟩ := idx_onto ⟨(i 0).val, hi0⟩ ⟨(i 1).val / 50000, by omega⟩
  have q0 : win0_2.index t (0 : Fin 3) = (i 0).val := congrFun ht 0
  have q1 : win0_2.index t (1 : Fin 3) = (i 1).val / 50000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 50000 ≤ (i 1).val ∧ (i 1).val < win0_2.index t (1 : Fin 3) * 50000 + 50000; omega
  | ⟨2, _⟩ => show win0_2.index t (2 : Fin 3) * 16 ≤ (i 2).val ∧ (i 2).val < win0_2.index t (2 : Fin 3) * 16 + 16; omega

/-- The contribution array after the region. -/
theorem final_contrib (c : Dev nD) : (dats m 0 c).arrAt 2 cfg0.N = contrib (V m c main_v8) (V m c main_v1) :=
  (dats m 0 c).arrAt_eq_of_cover 2 (contrib (V m c main_v8) (V m c main_v1)) (fun t _ => flushed_eq m c t) covered

end Cert.KernelIdeal.Hand

end
-- ==== Proof.KernelRun.lean ====
/-
  The kernel's run, read back as one term of the five arguments.

  Before the region the host changes the float format of the features and of the weights (the identity on the extended
  reals), wraps the negative entries of rules_in by adding 500000, and gathers the feature rows at the wrapped indices.
  The region leaves the per-offset products of the gathered rows with the weights (`final_contrib`). After it the host
  broadcasts the bias over the 500000 sites, flattens rules_out and the products to 6750000 rows, wraps the negative
  indices, and scatter-adds the product rows into the broadcast bias.
-/
import proofs.«174144_j10934986735759_1_alg».proof.Proof.Gen.KernelIdeal.Frame
import proofs.«174144_j10934986735759_1_alg».proof.Proof.KernelValue
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The gather's start indices: rules_in with 500000 added where negative, as a trailing unit column. -/
def wrappedIn (ri : (⟨S27x250000, .i32⟩ : BufTy).Contents (Elt Ideal)) : (⟨S27x250000x1, .i32⟩ : BufTy).Contents (Elt Ideal) :=
  broadcastInDim S27x250000x1 ![0, 1] bcast_S27x250000_S27x250000x1_0_1
    (select (cmpi .slt ri (broadcastInDim S27x250000 ![] bcast_S_S27x250000 (constantI S_ 32 0#32)))
      (addi ri (broadcastInDim S27x250000 ![] bcast_S_S27x250000 (constantI S_ 32 500000#32))) ri)

/-- The feature rows the rule book names, offset by offset. -/
def gathered (x : (⟨S500000x16, .f32⟩ : BufTy).Contents (Elt Ideal)) (ri : (⟨S27x250000, .i32⟩ : BufTy).Contents (Elt Ideal)) : S27x250000x16.Idx → EReal :=
  Host.gather gather_S500000x16_S27x250000x1_S27x250000x16_2_0_n_n_0_2_116 x (wrappedIn ri)

/-- The host lines after the region as one function of the bias, rules_out and the contribution array: the bias
    broadcast over the sites, the flattened contributions scatter-added at the flattened, wrapped rules_out. -/
def scatterTail (b : (⟨S16, .f32⟩ : BufTy).Contents (Elt Ideal)) (ro : (⟨S27x250000, .i32⟩ : BufTy).Contents (Elt Ideal)) (ctr : (⟨S27x250000x16, .f32⟩ : BufTy).Contents (Elt Ideal)) : (⟨S500000x16, .f32⟩ : BufTy).Contents (Elt Ideal) :=
  Host.scatterAdd (F := Ideal) (φ := .f32) scatter_S500000x16_S6750000x1_S6750000x16_1_0_0_1 (broadcastInDim S500000x16 ![1] bcast_S16_S500000x16_1 b)
    (broadcastInDim S6750000x1 ![0] bcast_S6750000_S6750000x1_0
      (select (cmpi .slt (shapeCast _ ro shapeCasts_S27x250000_S6750000) (broadcastInDim S6750000 ![] bcast_S_S6750000 (constantI S_ 32 0#32)))
        (addi (shapeCast _ ro shapeCasts_S27x250000_S6750000) (broadcastInDim S6750000 ![] bcast_S_S6750000 (constantI S_ 32 500000#32)))
        (shapeCast _ ro shapeCasts_S27x250000_S6750000)))
    (shapeCast _ ctr shapeCasts_S27x250000x16_S6750000x16)

/-- The kernel's result as a function of its five arguments. -/
def result (x : (⟨S500000x16, .f32⟩ : BufTy).Contents (Elt Ideal)) (w : (⟨S27x16x16, .f32⟩ : BufTy).Contents (Elt Ideal)) (b : (⟨S16, .f32⟩ : BufTy).Contents (Elt Ideal)) (ri ro : (⟨S27x250000, .i32⟩ : BufTy).Contents (Elt Ideal)) : (⟨S500000x16, .f32⟩ : BufTy).Contents (Elt Ideal) :=
  scatterTail b ro (contrib (gathered x ri) w)

/-- The weights as the region finds them: the argument, its format changed, which is the identity here. -/
theorem weights_eq (c : Dev nD) : V m c main_v1 = m ((c : Thread nD τ).loc main_arg1) := by
  show StableHlo.after hostOps0 (fun b => m (c, b)) (Proc.devRef .tc main_v1) = _
  after_results
  rfl

/-- The gathered rows as the region finds them. -/
theorem gathered_eq (c : Dev nD) :
    V m c main_v8 = gathered (m ((c : Thread nD τ).loc main_arg0)) (m ((c : Thread nD τ).loc main_arg3)) := by
  show StableHlo.after hostOps0 (fun b => m (c, b)) (Proc.devRef .tc main_v8) = _
  after_results
  rfl

/-- The host lines after the region, from any contents of the buffers they read. -/
theorem tail_of (W : Valuation τ sig (Elt Ideal)) :
    StableHlo.after hostOps1 W (Proc.devRef .tc main_v19)
      = scatterTail (W (Proc.devRef .tc main_arg2)) (W (Proc.devRef .tc main_arg4)) (W (Proc.devRef .tc main_v9)) := by
  after_results
  rfl

/-- The result buffer after the whole run. -/
theorem result_eq (c : Dev nD) :
    Pipeline.afterTail₀ cfgs (dats m) 0 (V0 m) [hostOps1] c main_v19
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v19) = _
  refine (tail_of _).trans ?_
  have e9 : Pipeline.withArrays (cfgs 0).spec c (V0 m c) (fun w => (dats m 0 c).arrAt w (cfgs 0).N) (Proc.devRef .tc main_v9)
      = contrib (gathered (m ((c : Thread nD τ).loc main_arg0)) (m ((c : Thread nD τ).loc main_arg3))) (m ((c : Thread nD τ).loc main_arg1)) :=
    (Pipeline.withArrays_arr spec0 launch0.win.arr_inj c _ _ 2).trans
      ((final_contrib m c).trans (by rw [gathered_eq, weights_eq]))
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [e9, e2, e4]
  rfl

/-- The run, read: the result buffer at `result` of the arguments, the arguments unchanged. -/
theorem run : θ_run defs (onTc (τ := τ) (main (F := Ideal))) ⟨m, fun _ => 0, ρ⟩ fun r => ∀ c : Dev nD,
      r.2.mem ((c.tc : Thread nD τ).loc main_v19)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v19 (Pipeline.mem_restRefs_of main_v19 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Hand

end
-- ==== Proof.Bridge.lean ====
/-
  The reference computes the same function of the five arguments as the kernel.

  Both gather the feature rows at the wrapped rules_in, form for every offset k and rule r the products of the gathered
  row with that offset's weight matrix, and scatter-add the product rows into the broadcast bias at the wrapped,
  flattened rules_out. The reference forms the products by one batched contraction over the offsets; entry (k, r, o) of
  that contraction is the sum over the input channels c of gathered (k, r, c) · weight (k, c, o), the same finite sum
  the kernel's tiles leave there. No law of arithmetic beyond reading both sides at an entry is used, so the finiteness
  of the inputs plays no part.
-/
import proofs.«174144_j10934986735759_1_alg».proof.Proof.KernelRun
import proofs.«174144_j10934986735759_1_alg».proof.Proof.Gen.ReferenceIdeal.Read

noncomputable section

open scoped BigOperators

namespace Cert.Bridge

open Idealize.ShloMosaic Idealize.ShloMosaic.ValueIdx

/-- The reference's batched contraction of the gathered rows with the weights is the array of per-offset products. -/
theorem products_eq (x : (⟨Cert.ReferenceIdeal.S500000x16, .f32⟩ : BufTy).Contents (Elt Ideal)) (w : (⟨Cert.ReferenceIdeal.S27x16x16, .f32⟩ : BufTy).Contents (Elt Ideal))
    (ri : (⟨Cert.ReferenceIdeal.S27x250000, .i32⟩ : BufTy).Contents (Elt Ideal)) :
    Cert.ReferenceIdeal.Read.val_main_v7 (F := Ideal) x w ri = Cert.KernelIdeal.Hand.contrib (Cert.KernelIdeal.Hand.gathered x ri) w := by
  funext i
  rw [Cert.ReferenceIdeal.Read.val_main_v7_apply]
  unfold Cert.KernelIdeal.Hand.contrib
  refine Finset.sum_congr rfl fun k _ => ?_
  have hl : Cert.ReferenceIdeal.Read.lidx_main_v7 i k = ix3 (i 0) (i 1) k :=
    funext fun a => by match a with | ⟨0, _⟩ => rfl | ⟨1, _⟩ => rfl | ⟨2, _⟩ => rfl
  have hr : Cert.ReferenceIdeal.Read.ridx_main_v7 i k = ix3 (i 0) k (i 2) :=
    funext fun a => by match a with | ⟨0, _⟩ => rfl | ⟨1, _⟩ => rfl | ⟨2, _⟩ => rfl
  rw [hl, hr]
  rfl

/-- The reference's result is the kernel's result of the same arguments. -/
theorem reference_eq (x : (⟨Cert.ReferenceIdeal.S500000x16, .f32⟩ : BufTy).Contents (Elt Ideal)) (w : (⟨Cert.ReferenceIdeal.S27x16x16, .f32⟩ : BufTy).Contents (Elt Ideal))
    (b : (⟨Cert.ReferenceIdeal.S16, .f32⟩ : BufTy).Contents (Elt Ideal)) (ri ro : (⟨Cert.ReferenceIdeal.S27x250000, .i32⟩ : BufTy).Contents (Elt Ideal)) :
    Cert.ReferenceIdeal.Read.val_main_v17 (F := Ideal) x w b ri ro = Cert.KernelIdeal.Hand.result x w b ri ro := by
  unfold Cert.ReferenceIdeal.Read.val_main_v17 Cert.ReferenceIdeal.Read.val_main_v10
  rw [products_eq]
  rfl

end Cert.Bridge

end
-- ==== Proof.lean ====
/-
  The certificate of the submanifold convolution: rule-book gather, per-offset product, scatter-add.

  The kernel gathers the feature rows the rule book names (after a change of float format that is the identity on the
  extended reals), multiplies, offset by offset and in tiles of 50000 rules, each gathered row with that offset's
  16 by 16 weight matrix, and scatter-adds the product rows into the bias broadcast over the sites. The reference does
  the same with one batched contraction in place of the tiles. Entry (k, r, o) of the products is on both sides the sum
  over the input channels c of gathered (k, r, c) · weight (k, c, o); the host lines around it are the same on both
  sides. So the two results are one function of the arguments (`Cert.Bridge.reference_eq`), whatever the inputs.

  The three frames: the kernel's and the idealized kernel's are the generated frames of their one region; the
  reference's is its generated run with the result dropped. The idealization rewrote nothing, so `preserves` is trivial.
-/
import proofs.«174144_j10934986735759_1_alg».proof.Defs
import proofs.«174144_j10934986735759_1_alg».proof.Proof.Gen.Kernel
import proofs.«174144_j10934986735759_1_alg».proof.Proof.Gen.Kernel.Skeleton
import proofs.«174144_j10934986735759_1_alg».proof.Proof.Gen.Kernel.Launch
import proofs.«174144_j10934986735759_1_alg».proof.Proof.Gen.Kernel.Points
import proofs.«174144_j10934986735759_1_alg».proof.Proof.Gen.Kernel.Frame
import proofs.«174144_j10934986735759_1_alg».proof.Proof.Gen.KernelIdeal
import proofs.«174144_j10934986735759_1_alg».proof.Proof.Gen.KernelIdeal.Skeleton
import proofs.«174144_j10934986735759_1_alg».proof.Proof.Gen.KernelIdeal.Launch
import proofs.«174144_j10934986735759_1_alg».proof.Proof.Gen.KernelIdeal.Points
import proofs.«174144_j10934986735759_1_alg».proof.Proof.Gen.KernelIdeal.Frame
import proofs.«174144_j10934986735759_1_alg».proof.Proof.Gen.ReferenceIdeal
import proofs.«174144_j10934986735759_1_alg».proof.Proof.Gen.ReferenceIdeal.Run
import proofs.«174144_j10934986735759_1_alg».proof.Proof.Gen.ReferenceIdeal.Read
import proofs.«174144_j10934986735759_1_alg».proof.Proof.Gen.Pre_finite_inputs
import proofs.«174144_j10934986735759_1_alg».proof.Proof.KernelRun
import proofs.«174144_j10934986735759_1_alg».proof.Proof.Bridge
import Idealize.ShloMosaic.Adequacy
import Idealize.ShloMosaic.Init

noncomputable section

namespace Cert.Proof

open Idealize.ShloMosaic Idealize.ShloMosaic.TcCoe Idealize.SL.Sem

/-- The kernel runs and keeps its arguments: the generated frame of its region. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's run leaves
    `result` of the arguments, the reference's its own composed term of them, and the two are one function. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact (Cert.ReferenceIdeal.Read.val_main_v17_eq _ _ _ _ _).trans (Cert.Bridge.reference_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
